-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S768x768 : Shape := ⟨2, ![768, 768]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S4x8192x768 .f32) (main_arg1 : FVec F S768x768 .f32) (main_arg2 : FVec F S768 .f32) (main_arg3 : FVec F S768 .f32) (main_arg4 : FVec F S768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_v13 main_v16
-- ==== Kernel.lean ====
abbrev S4x8192x768 : Shape := ⟨3, ![4, 8192, 768]⟩
abbrev S768x768 : Shape := ⟨2, ![768, 768]⟩
abbrev S768 : Shape := ⟨1, ![768]⟩
abbrev S32768x768 : Shape := ⟨2, ![32768, 768]⟩
abbrev S1024x768 : Shape := ⟨2, ![1024, 768]⟩
abbrev S768x1 : Shape := ⟨2, ![768, 1]⟩
abbrev S1x768 : Shape := ⟨2, ![1, 768]⟩

abbrev nBuf : Space → Nat
  | .hbm => 8
  | .vmem => 9
  | .smem => 0
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S32768x768, .f32⟩
  | .hbm, ⟨6, _⟩ => ⟨S32768x768, .f32⟩
  | .hbm, ⟨7, _⟩ => ⟨S4x8192x768, .f32⟩
  | .local _ .vmem, ⟨0, _⟩ => ⟨S1024x768, .f32⟩
  | .local _ .vmem, ⟨1, _⟩ => ⟨S1024x768, .f32⟩
  | .local _ .vmem, ⟨2, _⟩ => ⟨S768x768, .f32⟩
  | .local _ .vmem, ⟨3, _⟩ => ⟨S768, .f32⟩
  | .local _ .vmem, ⟨4, _⟩ => ⟨S768, .f32⟩
  | .local _ .vmem, ⟨5, _⟩ => ⟨S768, .f32⟩
  | .local _ .vmem, ⟨6, _⟩ => ⟨S1024x768, .f32⟩
  | .local _ .vmem, ⟨7, _⟩ => ⟨S1024x768, .f32⟩
  | .local _ .vmem, ⟨8, _⟩ => ⟨S768x768, .bf16⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x8192x768_S32768x768 : S4x8192x768.ShapeCasts S32768x768
  shapeCasts_S32768x768_S4x8192x768 : S32768x768.ShapeCasts S4x8192x768
  inb_S768_S768_0 : ∀ a, (![0] : Fin 1 → Nat) a + S768.size a ≤ S768.size a
  h_S768 : 0 < S768.numel
  shapeCasts_S768_S768x1 : S768.ShapeCasts S768x1
  inb_S768x768_S768x768_0_0 : ∀ a, (![0, 0] : Fin 2 → Nat) a + S768x768.size a ≤ S768x768.size a
  h_S768x768 : 0 < S768x768.numel
  broadcasts_S768x1_S768x768 : S768x1.Broadcasts S768x768
  bitsLt_bf16_f32 : FTy.bits .bf16 < FTy.bits .f32
  shapeCasts_S768x768_S768x768 : S768x768.ShapeCasts S768x768
  packedbf16_S768x768_S768x768_0_0 : (Rect.unit (s := S768x768) ![0, 0] S768x768.size inb_S768x768_S768x768_0_0).PackedRows (EltTy.packing .bf16)
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  shapeCasts_S768_S1x768 : S768.ShapeCasts S1x768
  broadcasts_S1x768_S1024x768 : S1x768.Broadcasts S1024x768
  dot_S1024x768_S768x768_S1024x768_1_1_0_0_n_n_wf : DotDims.WF S1024x768 S768x768 S1024x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x768.size a ≤ S32768x768.size a
  hwx0_5 : ∀ i : grid0.Coords, EltTy.bits .f32 = 32 ∨ (Rect.block (s := S32768x768) S1024x768.size (cc0_transform_5 i) (hinb0_5 i)).WholeWords (EltTy.packing .f32)

variable [Facts₀]

def dot_S1024x768_S768x768_S1024x768_1_1_0_0_n_n : DotDims S1024x768 S768x768 S1024x768 where
  lhsContracting := [1]
  rhsContracting := [1]
  lhsNonContracting := [0]
  rhsNonContracting := [0]
  lhsBatch := []
  rhsBatch := []
  wf := dot_S1024x768_S768x768_S1024x768_1_1_0_0_n_n_wf

abbrev win0_0 : Pipeline.Window sig grid0 :=
  Pipeline.Window.ofSpec (Memref.whole main_call0_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1024x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S768x768 : Shape := ⟨2, ![768, 768]⟩
abbrev S768 : Shape := ⟨1, ![768]⟩
abbrev S768x1 : Shape := ⟨2, ![768, 1]⟩
abbrev S1x1x768 : Shape := ⟨3, ![1, 1, 768]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S768x1, .f32⟩
  | .hbm, ⟨6, _⟩ => ⟨S768x768, .f32⟩
  | .hbm, ⟨7, _⟩ => ⟨S768x768, .f32⟩
  | .hbm, ⟨8, _⟩ => ⟨S768x1, .f32⟩
  | .hbm, ⟨9, _⟩ => ⟨S768x768, .f32⟩
  | .hbm, ⟨10, _⟩ => ⟨S768x768, .f32⟩
  | .hbm, ⟨11, _⟩ => ⟨S4x8192x768, .f32⟩
  | .hbm, ⟨12, _⟩ => ⟨S1x1x768, .f32⟩
  | .hbm, ⟨13, _⟩ => ⟨S4x8192x768, .f32⟩
  | .hbm, ⟨14, _⟩ => ⟨S4x8192x768, .f32⟩
  | .hbm, ⟨15, _⟩ => ⟨S_, .f32⟩
  | .hbm, ⟨16, _⟩ => ⟨S4x8192x768, .f32⟩
  | .hbm, ⟨17, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S768_S768x1_0 : S768.BroadcastsInDim S768x1 (![0] : Fin 1 → Fin S768x1.rank)
  bcast_S768x1_S768x768_0_1 : S768x1.BroadcastsInDim S768x768 (![0, 1] : Fin 2 → Fin S768x768.rank)
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  bcast_S_S4x8192x768 : S_.BroadcastsInDim S4x8192x768 (![] : Fin 0 → Fin S4x8192x768.rank)
  dot_S4x8192x768_S768x768_S4x8192x768_2_1_01_0_n_n_wf : DotDims.WF S4x8192x768 S768x768 S4x8192x768 [2] [1] [0, 1] [0] [] []

variable [Facts₀]

def dot_S4x8192x768_S768x768_S4x8192x768_2_1_01_0_n_n : DotDims S4x8192x768 S768x768 S4x8192x768 where
  lhsContracting := [2]
  rhsContracting := [1]
  lhsNonContracting := [0, 1]
  rhsNonContracting := [0]
  lhsBatch := []
  rhsBatch := []
  wf := dot_S4x8192x768_S768x768_S4x8192x768_2_1_01_0_n_n_wf

class Facts : Prop extends Facts₀ where

variable [Facts]
-- ==== Proof.Pieces.lean ====
/-
  What one grid point of the tiled program leaves behind, as values.

  The program keeps a 768 × 768 scratch across its 32 grid points. The first point rebuilds the weight α·W + β into it
  and then, like every later point, reads the scratch back and stores the layer of its own 1024 rows of x. So after
  every point the scratch holds the first point's rebuilt weight, and the output's buffer holds that point's rows
  contracted with it, plus the bias, clipped below at zero.
-/
import proofs.«145539_g82884278878587_cont_sun_c4_746_6_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Zero offsets: each load and store covers its whole buffer. -/
theorem hz2 : (![0, 0] : Fin 2 → Nat) = fun _ => 0 := funext fun a => by fin_cases a <;> rfl
theorem hz1 : (![0] : Fin 1 → Nat) = fun _ => 0 := funext fun a => by fin_cases a <;> rfl

/-- The first point's one store into the scratch is the rebuilt weight of the scale, shift and matrix blocks. -/
theorem sout_A (c : Dev nD) (i : grid0.Coords) (a1 : Memref sig .tc .vmem S1024x768 .f32) (h1 : a1.IsWhole) (a2 : Memref sig .tc .vmem S768x768 .f32) (h2 : a2.IsWhole) (a3 : Memref sig .tc .vmem S768 .f32) (h3 : a3.IsWhole) (a4 : Memref sig .tc .vmem S768 .f32) (h4 : a4.IsWhole) (a5 : Memref sig .tc .vmem S768 .f32) (h5 : a5.IsWhole) (a6 : Memref sig .tc .vmem S1024x768 .f32) (h6 : a6.IsWhole) (a7 : Memref sig .tc .vmem S768x768 .bf16) (h7 : a7.IsWhole) (hc : cond0_0 i) (x0 : Vec F S1024x768 .f32) (x1 : Vec F S768x768 .f32) (x2 : Vec F S768 .f32) (x3 : Vec F S768 .f32) (x4 : Vec F S768 .f32) :
    sout0_A_0 c i a1 h1 a2 h2 a3 h3 a4 h4 a5 h5 a6 h6 a7 h7 hc x0 x1 x2 x3 x4 = k0_pay1 x3 x4 x1 := by
  unfold sout0_A_0
  rw [View.read_writes_eq_canon _ _ _ (scover0_A_0 c i a1 h1 a2 h2 a3 h3 a4 h4 a5 h5 a6 h6 a7 h7 hc x0 x1 x2 x3 x4)]
  unfold kernelRun0_A
  dsimp only
  sl_unfold_words
  rw [View.canon_unit_zero hz2]
  simp only [View.readAt_eq_ld, h2.read_unread, h4.read_unread, h5.read_unread, View.ld_unit_zero (S := S768) hz1,
    View.ld_unit_zero (S := S768x768) hz2]

/-- The first point's store into the output's buffer is the layer of its rows with the weight it has just stored (the
    scratch is read back after the store that covers it). -/
theorem out_A (c : Dev nD) (i : grid0.Coords) (a1 : Memref sig .tc .vmem S1024x768 .f32) (h1 : a1.IsWhole) (a2 : Memref sig .tc .vmem S768x768 .f32) (h2 : a2.IsWhole) (a3 : Memref sig .tc .vmem S768 .f32) (h3 : a3.IsWhole) (a4 : Memref sig .tc .vmem S768 .f32) (h4 : a4.IsWhole) (a5 : Memref sig .tc .vmem S768 .f32) (h5 : a5.IsWhole) (a6 : Memref sig .tc .vmem S1024x768 .f32) (h6 : a6.IsWhole) (a7 : Memref sig .tc .vmem S768x768 .bf16) (h7 : a7.IsWhole) (hc : cond0_0 i) (x0 : Vec F S1024x768 .f32) (x1 : Vec F S768x768 .f32) (x2 : Vec F S768 .f32) (x3 : Vec F S768 .f32) (x4 : Vec F S768 .f32) :
    out0_A_5 c i a1 h1 a2 h2 a3 h3 a4 h4 a5 h5 a6 h6 a7 h7 hc x0 x1 x2 x3 x4 = k0_pay2 x0 (k0_pay1 x3 x4 x1) x2 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz2]
  simp only [View.readAt_eq_ld, h1.read_unread, h2.read_unread, h3.read_unread, h4.read_unread, h5.read_unread,
    View.readCov_unit_zero (S := S768x768) _ hz2, View.ld_unit_zero (S := S768) hz1,
    View.ld_unit_zero (S := S768x768) hz2, View.ld_unit_zero (S := S1024x768) hz2]

/-- A later point's store into the output's buffer is the layer of its rows with whatever the scratch holds. -/
theorem out_B (c : Dev nD) (i : grid0.Coords) (a1 : Memref sig .tc .vmem S1024x768 .f32) (h1 : a1.IsWhole) (a2 : Memref sig .tc .vmem S768x768 .f32) (h2 : a2.IsWhole) (a3 : Memref sig .tc .vmem S768 .f32) (h3 : a3.IsWhole) (a4 : Memref sig .tc .vmem S768 .f32) (h4 : a4.IsWhole) (a5 : Memref sig .tc .vmem S768 .f32) (h5 : a5.IsWhole) (a6 : Memref sig .tc .vmem S1024x768 .f32) (h6 : a6.IsWhole) (a7 : Memref sig .tc .vmem S768x768 .bf16) (h7 : a7.IsWhole) (hc : ¬cond0_0 i) (x0 : Vec F S1024x768 .f32) (x1 : Vec F S768x768 .f32) (x2 : Vec F S768 .f32) (x3 : Vec F S768 .f32) (x4 : Vec F S768 .f32) (xs0 : Vec F S768x768 .bf16) :
    out0_B_5 c i a1 h1 a2 h2 a3 h3 a4 h4 a5 h5 a6 h6 a7 h7 hc x0 x1 x2 x3 x4 xs0 = k0_pay2 x0 xs0 x2 := by
  unfold out0_B_5
  rw [View.read_writes_eq_canon _ _ _ (cover0_B_5 c i a1 h1 a2 h2 a3 h3 a4 h4 a5 h5 a6 h6 a7 h7 hc x0 x1 x2 x3 x4 xs0)]
  unfold kernelRun0_B
  dsimp only
  sl_unfold_words
  rw [View.canon_unit_zero hz2]
  simp only [View.readAt_eq_ld, h1.read_unread, h3.read_unread, h7.read_unread, View.ld_unit_zero (S := S768) hz1,
    View.ld_unit_zero (S := S768x768) hz2, View.ld_unit_zero (S := S1024x768) hz2]

variable (m : (ℓ : Loc nD τ sig) → Buf (Elt F) ℓ)

/-- The five input blocks at a point, at their literal types: rows of x, the matrix, the bias, the scale, the shift. -/
abbrev xblk (c : Dev nD) (t : Fin cfg0.N) : Vec F S1024x768 .f32 := iblk m c 0 t
abbrev wblk (c : Dev nD) (t : Fin cfg0.N) : Vec F S768x768 .f32 := iblk m c 1 t
abbrev bblk (c : Dev nD) (t : Fin cfg0.N) : Vec F S768 .f32 := iblk m c 2 t
abbrev ablk (c : Dev nD) (t : Fin cfg0.N) : Vec F S768 .f32 := iblk m c 3 t
abbrev sblk (c : Dev nD) (t : Fin cfg0.N) : Vec F S768 .f32 := iblk m c 4 t

/-- The grid's first point. -/
abbrev t0 : Fin cfg0.N := ⟨0, by rw [show cfg0.N = 32 from N_0]; decide⟩

/-- What the first point stores into the scratch: the rebuilt weight, from the scale, the shift and the matrix as that
    point's blocks hold them. -/
def wscr (c : Dev nD) : Vec F S768x768 .bf16 := k0_pay1 (ablk m c t0) (sblk m c t0) (wblk m c t0)

/-- After every point the scratch holds the first point's rebuilt weight: the first point stores it, every later point
    leaves the scratch as the point before left it. -/
theorem scratch_eq (c : Dev nD) : ∀ (n : ℕ) (h : n < cfg0.N), (outsAt0 m c n h).2 = wscr m c := by
  intro n
  induction n with
  | zero =>
    intro h
    rw [outsAt0_A m c ⟨0, h⟩ rfl]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl) (xblk m c ⟨0, h⟩) (wblk m c ⟨0, h⟩) (bblk m c ⟨0, h⟩) (ablk m c ⟨0, h⟩) (sblk m c ⟨0, h⟩)
  | succ n ih =>
    intro h
    have hN : cfg0.N = 32 := N_0
    have hB : ¬(⟨n + 1, h⟩ : Fin cfg0.N).val % 32 = 0 := by dsimp only; omega
    rw [outsAt0_B m c ⟨n + 1, h⟩ hB]
    dsimp only [sout0_B_0]
    exact ih (Nat.lt_of_succ_lt h)

/-- After point t the output's buffer holds the layer of that point's block of rows with the rebuilt weight: the first
    point reads back the weight it has just stored, a later point reads what the point before left. -/
theorem out_eq (c : Dev nD) (t : Fin cfg0.N) :
    (outsAt0 m c t.val t.isLt).1 = k0_pay2 (xblk m c t) (wscr m c) (bblk m c t) := by
  have hN : cfg0.N = 32 := N_0
  by_cases h0 : t.val % 32 = 0
  · obtain rfl : t = t0 := Fin.ext (by have := t.isLt; show t.val = 0; omega)
    rw [outsAt0_A m c t0 h0]
    dsimp only
    exact out_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) ((hcond0_0 t0).mpr h0) (xblk m c t0) (wblk m c t0) (bblk m c t0) (ablk m c t0) (sblk m c t0)
  · rw [outsAt0_B m c t h0]
    dsimp only
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (xblk m c t) (wblk m c t) (bblk m c t) (ablk m c t) (sblk m c t) (outsAt0 m c (t.val - 1) (Nat.lt_of_le_of_lt (Nat.sub_le _ _) t.isLt)).2).trans ?_
    rw [scratch_eq m c (t.val - 1) (Nat.lt_of_le_of_lt (Nat.sub_le _ _) t.isLt)]

end Cert.KernelIdeal.Pieces

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.Spec.lean ====
/-
  A dense layer whose weight is rebuilt from a stored matrix by one scale and one shift per row, followed by a bias and
  the larger-of-zero:

      out[r, h] = max (∑ d, x[r, d] · (α[h] · W[h, d] + β[h]) + b[h]) 0

  over extended reals. Stated once for the 3-d array of 4 × 8192 rows (`G`), and for a 2-d array of any number of rows
  (`layer` over `wrec`); the 3-d array with its two leading axes merged is the 2-d array of 32768 rows, row 8192·a + s.
-/
import proofs.«145539_g82884278878587_cont_sun_c4_746_6_alg».proof.Proof.LibRowLayers

noncomputable section

open scoped BigOperators

namespace AffineRelu

open Idealize.ShloMosaic Idealize.ShloMosaic.ValueIdx

/-- The rebuilt weight: row h of W scaled by α h, shifted by β h. -/
def wrec (α β : (⟨1, ![768]⟩ : Shape).Idx → EReal) (W : (⟨2, ![768, 768]⟩ : Shape).Idx → EReal) :
    (⟨2, ![768, 768]⟩ : Shape).Idx → EReal :=
  fun j => α (ix1 (j 0)) * W (ix2 (j 0) (j 1)) + β (ix1 (j 0))

/-- The layer over a matrix of M rows: entry (r, h) contracts row r of X with row h of the weight, adds b h, and takes the
    larger of that and zero. -/
def layer {M : ℕ} (X : (⟨2, ![M, 768]⟩ : Shape).Idx → EReal) (Wr : (⟨2, ![768, 768]⟩ : Shape).Idx → EReal)
    (b : (⟨1, ![768]⟩ : Shape).Idx → EReal) : (⟨2, ![M, 768]⟩ : Shape).Idx → EReal :=
  fun j => max ((∑ d : Fin 768, X (ix2 (j 0) d) * Wr (ix2 (j 1) d)) + b (ix1 (j 1))) (Ideal.ofBits .f32 0x00000000#32)

/-- The whole computation over the 3-d array. -/
def G (x : (⟨3, ![4, 8192, 768]⟩ : Shape).Idx → EReal) (W : (⟨2, ![768, 768]⟩ : Shape).Idx → EReal)
    (b α β : (⟨1, ![768]⟩ : Shape).Idx → EReal) : (⟨3, ![4, 8192, 768]⟩ : Shape).Idx → EReal :=
  fun i => max ((∑ d : Fin 768, x (ix3 (i 0) (i 1) d) * (α (ix1 (i 2)) * W (ix2 (i 2) d) + β (ix1 (i 2)))) + b (ix1 (i 2)))
    (Ideal.ofBits .f32 0x00000000#32)

/-! ## The two stored values of the tiled program, read at an index -/

/-- The scale and the shift each made a column and spread along the rows, times and plus the matrix, narrowed (the
    identity on extended reals): the rebuilt weight. -/
theorem rebuilt_eq (hsc : (⟨1, ![768]⟩ : Shape).ShapeCasts ⟨2, ![768, 1]⟩)
    (hbc : (⟨2, ![768, 1]⟩ : Shape).Broadcasts ⟨2, ![768, 768]⟩) (hlt : FTy.bf16.bits < FTy.f32.bits)
    (hss : (⟨2, ![768, 768]⟩ : Shape).ShapeCasts ⟨2, ![768, 768]⟩)
    (α β : FVec Ideal ⟨1, ![768]⟩ .f32) (W : FVec Ideal ⟨2, ![768, 768]⟩ .f32) :
    shapeCast ⟨2, ![768, 768]⟩
      (truncf .bf16 (addf (mulf (broadcastTo ⟨2, ![768, 768]⟩ (shapeCast ⟨2, ![768, 1]⟩ α hsc) hbc) W)
        (broadcastTo ⟨2, ![768, 768]⟩ (shapeCast ⟨2, ![768, 1]⟩ β hsc) hbc)) hlt) hss = wrec α β W := by
  rw [shapeCast_self]
  funext j
  obtain ⟨p, q, rfl⟩ : ∃ (p : Fin 768) (q : Fin 768), j = ix2 p q := ⟨j 0, j 1, eq_ix2 j⟩
  rw [truncf_apply, addf_apply, mulf_apply, RowLayers.broadcastColumn_apply, RowLayers.broadcastColumn_apply,
    RowLayers.column_apply, RowLayers.column_apply]
  rfl

/-- The block of rows narrowed, multiplied on the matrix unit with the weight contracted on its last axis into a zero
    accumulator, plus the bias as a row spread down the rows, and the larger of that and the zero splat: the layer. -/
theorem layer_eq {M : ℕ} (hss : (⟨2, ![M, 768]⟩ : Shape).ShapeCasts ⟨2, ![M, 768]⟩) (hlt : FTy.bf16.bits < FTy.f32.bits)
    (hsc : (⟨1, ![768]⟩ : Shape).ShapeCasts ⟨2, ![1, 768]⟩) (hbc : (⟨2, ![1, 768]⟩ : Shape).Broadcasts ⟨2, ![M, 768]⟩)
    (X : FVec Ideal ⟨2, ![M, 768]⟩ .f32) (Wr : FVec Ideal ⟨2, ![768, 768]⟩ .bf16) (b : FVec Ideal ⟨1, ![768]⟩ .f32) :
    maximumf (addf (matmul (DotDims.transposedRhs M 768 768) none (truncf .bf16 (shapeCast ⟨2, ![M, 768]⟩ X hss) hlt) Wr
        (constant ⟨2, ![M, 768]⟩ .f32 0x00000000#32))
      (broadcastTo ⟨2, ![M, 768]⟩ (shapeCast ⟨2, ![1, 768]⟩ b hsc) hbc))
      (broadcast ⟨2, ![M, 768]⟩ (Scalar.ofBits (F := Ideal) .f32 0x00000000#32)) = layer X Wr b := by
  rw [shapeCast_self]
  funext j
  obtain ⟨p, q, rfl⟩ : ∃ (p : Fin M) (q : Fin 768), j = ix2 p q := ⟨j 0, j 1, eq_ix2 j⟩
  rw [maximumf_apply, addf_apply, RowLayers.matmulT_apply, RowLayers.biasRow_apply]
  rfl

/-! ## Merging and splitting the two leading axes -/

/-- Row 8192·a + s of the merged array is row (a, s) of the 3-d array. -/
theorem merged_apply {γ : Type} (hsc : (⟨3, ![4, 8192, 768]⟩ : Shape).ShapeCasts ⟨2, ![32768, 768]⟩)
    (x : (⟨3, ![4, 8192, 768]⟩ : Shape).Idx → γ) (a : Fin 4) (s : Fin 8192) (d : Fin 768) (r : Fin 32768)
    (hr : r.val = a.val * 8192 + s.val) :
    shapeCast ⟨2, ![32768, 768]⟩ x hsc (ix2 r d) = x (ix3 a s d) :=
  shapeCast_apply x hsc _ _ (by
    rw [Shape.rowMajor_val_three, Shape.rowMajor_val_two]
    show (a.val * 8192 + s.val) * 768 + d.val = r.val * 768 + d.val
    rw [hr])

/-- Row (a, s) of the split array is row 8192·a + s of the 2-d array. -/
theorem split_apply {γ : Type} (hsc : (⟨2, ![32768, 768]⟩ : Shape).ShapeCasts ⟨3, ![4, 8192, 768]⟩)
    (y : (⟨2, ![32768, 768]⟩ : Shape).Idx → γ) (a : Fin 4) (s : Fin 8192) (d : Fin 768) (r : Fin 32768)
    (hr : r.val = a.val * 8192 + s.val) :
    shapeCast ⟨3, ![4, 8192, 768]⟩ y hsc (ix3 a s d) = y (ix2 r d) :=
  shapeCast_apply y hsc _ _ (by
    rw [Shape.rowMajor_val_three, Shape.rowMajor_val_two]
    show r.val * 768 + d.val = (a.val * 8192 + s.val) * 768 + d.val
    rw [hr])

/-- The layer over the merged rows with the rebuilt weight, split back, is the whole computation. -/
theorem split_layer_merged (hm : (⟨3, ![4, 8192, 768]⟩ : Shape).ShapeCasts ⟨2, ![32768, 768]⟩)
    (hs : (⟨2, ![32768, 768]⟩ : Shape).ShapeCasts ⟨3, ![4, 8192, 768]⟩)
    (x : (⟨3, ![4, 8192, 768]⟩ : Shape).Idx → EReal) (W : (⟨2, ![768, 768]⟩ : Shape).Idx → EReal)
    (b α β : (⟨1, ![768]⟩ : Shape).Idx → EReal) :
    shapeCast ⟨3, ![4, 8192, 768]⟩ (layer (shapeCast ⟨2, ![32768, 768]⟩ x hm) (wrec α β W) b) hs = G x W b α β := by
  funext i
  obtain ⟨a, s, h, rfl⟩ : ∃ (a : Fin 4) (s : Fin 8192) (h : Fin 768), i = ix3 a s h := ⟨i 0, i 1, i 2, eq_ix3 i⟩
  have hr : a.val * 8192 + s.val < 32768 := by have := a.isLt; have := s.isLt; omega
  rw [split_apply hs _ a s h ⟨a.val * 8192 + s.val, hr⟩ rfl]
  show max ((∑ d : Fin 768, shapeCast ⟨2, ![32768, 768]⟩ x hm (ix2 ⟨a.val * 8192 + s.val, hr⟩ d) * wrec α β W (ix2 h d)) + b (ix1 h)) _
    = max ((∑ d : Fin 768, x (ix3 a s d) * (α (ix1 h) * W (ix2 h d) + β (ix1 h))) + b (ix1 h)) _
  refine congrArg (fun z => max (z + b (ix1 h)) _) (Finset.sum_congr rfl fun d _ => ?_)
  rw [merged_apply hm x a s d ⟨a.val * 8192 + s.val, hr⟩ rfl]
  rfl

end AffineRelu

end
-- ==== Proof.KernelValue.lean ====
/-
  What the tiled program's result buffer ends holding, at the exact instance.

  Before the region x's two leading axes are merged: 32768 rows of 768. The region's 32 points each take 1024 of those
  rows; W, b, α, β are taken whole at every point. By the induction over the points (the scratch holds the first point's
  rebuilt weight throughout) point t writes back, as rows 1024·t … 1024·t + 1023 of the output array, the layer

      max (∑ d, x[r, d] · (α[h] · W[h, d] + β[h]) + b[h]) 0

  of those rows, and the 32 blocks cover the array. After the region the array is split back into 4 × 8192 rows.
-/
import proofs.«145539_g82884278878587_cont_sun_c4_746_6_alg».proof.Defs
import proofs.«145539_g82884278878587_cont_sun_c4_746_6_alg».proof.Proof.Pieces
import proofs.«145539_g82884278878587_cont_sun_c4_746_6_alg».proof.Proof.Spec
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Pieces Idealize.ShloMosaic.ValueIdx

variable (m : (ℓ : Loc nD τ sig) → Buf (Elt Ideal) ℓ) (ρ : Dev nD → PrngReg)

/-- The stored weight is the rebuilt weight of its three operands. -/
theorem pay1_eq (α β : Vec Ideal S768 .f32) (W : Vec Ideal S768x768 .f32) : k0_pay1 α β W = AffineRelu.wrec α β W :=
  AffineRelu.rebuilt_eq _ _ _ _ α β W

/-- The stored block is the layer of its three operands. -/
theorem pay2_eq (X : Vec Ideal S1024x768 .f32) (Wr : Vec Ideal S768x768 .bf16) (b : Vec Ideal S768 .f32) :
    k0_pay2 X Wr b = AffineRelu.layer X Wr b :=
  AffineRelu.layer_eq _ _ _ _ X Wr b

/-- Where each window's block sits at point t: the rows of x and of the result move with the point, the matrix and the
    three vectors stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 2) = t.val ∧ win0_5.index t (1 : Fin 2) = 0 :=
  (by decide +kernel : ∀ t : Fin grid0.N, _)

/-- The arrays as the region finds them, at their literal types: x with its leading axes merged, W, b, α, β. -/
abbrev xarr (c : Dev nD) : Vec Ideal S32768x768 .f32 := V m c main_call0_v0
abbrev warr (c : Dev nD) : Vec Ideal S768x768 .f32 := V m c main_arg1
abbrev barr (c : Dev nD) : Vec Ideal S768 .f32 := V m c main_arg2
abbrev aarr (c : Dev nD) : Vec Ideal S768 .f32 := V m c main_arg3
abbrev sarr (c : Dev nD) : Vec Ideal S768 .f32 := V m c main_arg4

/-- The matrix's block at any point is the whole matrix; likewise the three vectors' blocks below. -/
theorem wblk_eq (c : Dev nD) (t : Fin cfg0.N) : wblk m c t = warr m c := by
  obtain ⟨-, -, e0, e1, -⟩ := idx_facts t
  funext j
  show V m c main_arg1 (((cfg0.win 1).blk t).view.emb j) = V m c main_arg1 j
  refine congrArg _ (funext fun a => Fin.ext ?_)
  match a with
  | ⟨0, _⟩ => show win0_1.index t (0 : Fin 2) * 768 + 1 * (j 0).val = (j 0).val; omega
  | ⟨1, _⟩ => show win0_1.index t (1 : Fin 2) * 768 + 1 * (j 1).val = (j 1).val; omega

theorem bblk_eq (c : Dev nD) (t : Fin cfg0.N) : bblk m c t = barr m c := by
  obtain ⟨-, -, -, -, e0, -⟩ := idx_facts t
  funext j
  show V m c main_arg2 (((cfg0.win 2).blk t).view.emb j) = V m c main_arg2 j
  refine congrArg _ (funext fun a => Fin.ext ?_)
  match a with
  | ⟨0, _⟩ => show win0_2.index t (0 : Fin 1) * 768 + 1 * (j 0).val = (j 0).val; omega

theorem ablk_eq (c : Dev nD) (t : Fin cfg0.N) : ablk m c t = aarr m c := by
  obtain ⟨-, -, -, -, -, e0, -⟩ := idx_facts t
  funext j
  show V m c main_arg3 (((cfg0.win 3).blk t).view.emb j) = V m c main_arg3 j
  refine congrArg _ (funext fun a => Fin.ext ?_)
  match a with
  | ⟨0, _⟩ => show win0_3.index t (0 : Fin 1) * 768 + 1 * (j 0).val = (j 0).val; omega

theorem sblk_eq (c : Dev nD) (t : Fin cfg0.N) : sblk m c t = sarr m c := by
  obtain ⟨-, -, -, -, -, -, e0, -⟩ := idx_facts t
  funext j
  show V m c main_arg4 (((cfg0.win 4).blk t).view.emb j) = V m c main_arg4 j
  refine congrArg _ (funext fun a => Fin.ext ?_)
  match a with
  | ⟨0, _⟩ => show win0_4.index t (0 : Fin 1) * 768 + 1 * (j 0).val = (j 0).val; omega

/-- Row p of point t's block of x is row 1024·t + p of the merged array. -/
theorem xblk_apply (c : Dev nD) (t : Fin cfg0.N) (p : Fin 1024) (d : Fin 768) (r : Fin 32768)
    (hr : r.val = t.val * 1024 + p.val) : xblk m c t (ix2 p d) = xarr m c (ix2 r d) := by
  obtain ⟨e0, e1, -⟩ := idx_facts t
  show V m c main_call0_v0 (((cfg0.win 0).blk t).view.emb (ix2 p d)) = V m c main_call0_v0 (ix2 r d)
  refine congrArg _ (funext fun a => Fin.ext ?_)
  match a with
  | ⟨0, _⟩ => show win0_0.index t (0 : Fin 2) * 1024 + 1 * p.val = r.val; omega
  | ⟨1, _⟩ => show win0_0.index t (1 : Fin 2) * 768 + 1 * d.val = d.val; omega

/-- What the result array of 32768 rows ends holding: the layer of the merged x with the weight rebuilt from α, β, W. -/
def arr (c : Dev nD) : Vec Ideal S32768x768 .f32 :=
  AffineRelu.layer (xarr m c) (AffineRelu.wrec (aarr m c) (sarr m c) (warr m c)) (barr m c)

/-- Entry (p, q) of what point t leaves in the output's buffer is entry (1024·t + p, q) of that array. -/
theorem block_layer (c : Dev nD) (t : Fin cfg0.N) (p : Fin 1024) (q : Fin 768) (r : Fin 32768)
    (hr : r.val = t.val * 1024 + p.val) :
    k0_pay2 (xblk m c t) (wscr m c) (bblk m c t) (ix2 p q) = arr m c (ix2 r q) := by
  rw [pay2_eq]
  unfold wscr arr
  rw [pay1_eq, wblk_eq, ablk_eq, sblk_eq, bblk_eq]
  show max ((∑ d : Fin 768, xblk m c t (ix2 p d) * AffineRelu.wrec (aarr m c) (sarr m c) (warr m c) (ix2 q d)) + barr m c (ix1 q)) _
    = max ((∑ d : Fin 768, xarr m c (ix2 r d) * AffineRelu.wrec (aarr m c) (sarr m c) (warr m c) (ix2 q d)) + barr m c (ix1 q)) _
  refine congrArg (fun z => max (z + barr m c (ix1 q)) _) (Finset.sum_congr rfl fun d _ => ?_)
  rw [xblk_apply m c t p d r hr]

/-- What point t writes back is block t of that array. -/
theorem flushed_eq (c : Dev nD) (t : Fin cfg0.N) :
    (dats m 0 c).flushed 5 t = ((cfg0.win 5).blk t).view.read (Elt Ideal) (arr m c) := by
  show (cfg0.win 5).cut (grid0.coords t) ((dats m 0 c).after 5 t) = _
  rw [after0_5, out_eq]
  obtain ⟨-, -, -, -, -, -, -, e0, e1⟩ := idx_facts t
  have hN : cfg0.N = 32 := N_0
  show (k0_pay2 (xblk m c t) (wscr m c) (bblk m c t) : S1024x768.Idx → EReal)
    = fun y : S1024x768.Idx => arr m c (((cfg0.win 5).blk t).view.emb y)
  funext y
  obtain ⟨p, q, rfl⟩ : ∃ (p : Fin 1024) (q : Fin 768), y = ix2 p q := ⟨y 0, y 1, eq_ix2 y⟩
  have hr : t.val * 1024 + p.val < 32768 := by have := t.isLt; have := p.isLt; omega
  have hemb : ((cfg0.win 5).blk t).view.emb (ix2 p q) = ix2 (⟨t.val * 1024 + p.val, hr⟩ : Fin 32768) q := by
    funext a; apply Fin.ext
    match a with
    | ⟨0, _⟩ => show win0_5.index t (0 : Fin 2) * 1024 + 1 * p.val = t.val * 1024 + p.val; omega
    | ⟨1, _⟩ => show win0_5.index t (1 : Fin 2) * 768 + 1 * q.val = q.val; omega
  rw [hemb]
  exact block_layer m c t p q ⟨t.val * 1024 + p.val, hr⟩ rfl

/-- An index of the array is in point t's block iff each coordinate is in the block's range on its axis. -/
theorem mem_blk (t : Fin cfg0.N) (i : S32768x768.Idx) :
    i ∈ ((cfg0.win 5).blk t).view.set ↔ ∀ a : Fin 2, win0_5.index t a * S1024x768.size a ≤ (i a).val ∧ (i a).val < win0_5.index t a * S1024x768.size a + S1024x768.size a := by
  show i ∈ ((View.whole main_call0_v1).slice (win0_5.rect t)).set ↔ _
  rw [View.set_slice_whole, Rect.mem_set_unit]
  exact Iff.rfl

/-- Every row of the array is in the block of the point numbered by its thousand-and-twenty-four. -/
theorem cover (i : S32768x768.Idx) :
    ∃ t : Fin cfg0.N, (cfg0.win 5).flush t = true ∧ i ∈ ((cfg0.win 5).blk t).view.set := by
  have hN : cfg0.N = 32 := N_0
  have hi0 : (i 0).val < 32768 := (i 0).isLt
  have hi1 : (i 1).val < 768 := (i 1).isLt
  let t : Fin cfg0.N := ⟨(i 0).val / 1024, by omega⟩
  obtain ⟨-, -, -, -, -, -, -, e0, e1⟩ := idx_facts t
  have ht : t.val = (i 0).val / 1024 := rfl
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 768 ≤ (i 1).val ∧ (i 1).val < win0_5.index t (1 : Fin 2) * 768 + 768; omega

/-- So the result array of 32768 rows ends at the layer of the merged x. -/
theorem final (c : Dev nD) : (dats m 0 c).arrAt 5 cfg0.N = arr m c :=
  (dats m 0 c).arrAt_eq_of_cover 5 (arr m c) (fun t _ => flushed_eq m c t) cover

/-! ## Around the region: x's leading axes merged before it, the result's split after it -/

/-- The region finds x with its two leading axes merged. -/
theorem xarr_eq (c : Dev nD) :
    xarr m c = shapeCast S32768x768 (m ((c : Thread nD τ).loc main_arg0)) shapeCasts_S4x8192x768_S32768x768 := by
  show StableHlo.after hostOps0 (fun b => m (c, b)) (Proc.devRef .tc main_call0_v0) = _
  after_results
  rfl

/-- The whole computation of the five arguments as launched. -/
def result (c : Dev nD) : Buf (Elt Ideal) ((c : Thread nD τ).loc main_v0) :=
  AffineRelu.G (m ((c : Thread nD τ).loc main_arg0)) (m ((c : Thread nD τ).loc main_arg1)) (m ((c : Thread nD τ).loc main_arg2))
    (m ((c : Thread nD τ).loc main_arg3)) (m ((c : Thread nD τ).loc main_arg4))

/-- The array of 32768 rows, split back into 4 × 8192 rows, is the whole computation. -/
theorem split_arr (c : Dev nD) :
    shapeCast S4x8192x768 (arr m c) shapeCasts_S32768x768_S4x8192x768 = result m c := by
  unfold arr result
  rw [xarr_eq]
  show shapeCast S4x8192x768 (AffineRelu.layer _ (AffineRelu.wrec (V m c main_arg3) (V m c main_arg4) (V m c main_arg1)) (V m c main_arg2)) _ = _
  rw [V_main_arg1, V_main_arg2, V_main_arg3, V_main_arg4]
  exact AffineRelu.split_layer_merged _ _ _ _ _ _ _

/-- After the lines that follow the region the result buffer holds the region's output array split back. -/
theorem tail_eq (c : Dev nD) :
    Pipeline.afterTail₀ cfgs (dats m) 0 (V0 m) [hostOps1] c main_v0
      = shapeCast S4x8192x768 (arr m c) shapeCasts_S32768x768_S4x8192x768 := by
  unfold Pipeline.afterTail₀
  show StableHlo.after hostOps1 _ (Proc.devRef .tc main_v0) = _
  after_results
  exact congrArg (fun z => shapeCast S4x8192x768 z shapeCasts_S32768x768_S4x8192x768)
    ((Pipeline.withArrays_arr spec0 launch0.win.arr_inj c _ _ 5).trans (final m c))

/-- The run, read: every weakly fair execution ends with the result buffer at the whole computation of the arguments as
    launched, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v0 (Pipeline.mem_restRefs_of main_v0 (by decide) (by decide))).trans ((tail_eq m c).trans (split_arr m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.KValue

end
-- ==== Proof.RefValue.lean ====
/-
  The reference at an index: the reconstructed weight α·W + β (both vectors spread along the rows of W), the contraction of
  x's last axis with the weight's last axis, the bias spread over the two leading axes, and the larger of that and zero —
  entry (a, s, h) is max (∑ d, x[a, s, d] · (α[h] · W[h, d] + β[h]) + b[h]) 0.
-/
import proofs.«145539_g82884278878587_cont_sun_c4_746_6_alg».proof.Defs
import proofs.«145539_g82884278878587_cont_sun_c4_746_6_alg».proof.Proof.Gen.ReferenceIdeal.Read
import proofs.«145539_g82884278878587_cont_sun_c4_746_6_alg».proof.Proof.Spec

noncomputable section

open scoped BigOperators

namespace Cert.ReferenceIdeal.RefValue

open Cert.ReferenceIdeal Cert.ReferenceIdeal.Read Idealize.ShloMosaic Idealize.ShloMosaic.ValueIdx

/-- The last stage of the reference is the whole computation of its five arguments (x, W, b, α, β in argument order). -/
theorem result_eq (x0 : (⟨S4x8192x768, .f32⟩ : BufTy).Contents (Elt Ideal)) (x1 : (⟨S768x768, .f32⟩ : BufTy).Contents (Elt Ideal))
    (x2 x3 x4 : (⟨S768, .f32⟩ : BufTy).Contents (Elt Ideal)) :
    val_main_v10 (F := Ideal) x0 x1 x2 x3 x4 = AffineRelu.G x0 x1 x2 x3 x4 := by
  funext i
  obtain ⟨a, s, h, rfl⟩ : ∃ (a : Fin 4) (s : Fin 8192) (h : Fin 768), i = ix3 a s h := ⟨i 0, i 1, i 2, eq_ix3 i⟩
  have el : ∀ k : Fin 768, lidx_main_v6 (ix3 a s h) k = ix3 a s k := fun k => funext fun d => Fin.ext (by
    match d with
    | ⟨0, _⟩ => rfl
    | ⟨1, _⟩ => rfl
    | ⟨2, _⟩ => rfl)
  have er : ∀ k : Fin 768, ridx_main_v6 (ix3 a s h) k = ix2 h k := fun k => funext fun d => Fin.ext (by
    match d with
    | ⟨0, _⟩ => rfl
    | ⟨1, _⟩ => rfl)
  have e0 : ∀ k : Fin 768, idx_main_v0 (idx_main_v1 (ix2 h k)) = ix1 h := fun k => funext fun d => Fin.ext (by
    match d with
    | ⟨0, _⟩ => rfl)
  have e3 : ∀ k : Fin 768, idx_main_v3 (idx_main_v4 (ix2 h k)) = ix1 h := fun k => funext fun d => Fin.ext (by
    match d with
    | ⟨0, _⟩ => rfl)
  have e7 : idx_main_v7 (idx_main_v8 (ix3 a s h)) = ix1 h := funext fun d => Fin.ext (by
    match d with
    | ⟨0, _⟩ => rfl)
  rw [val_main_v10_apply, val_main_v9_apply, val_main_v6_apply, val_main_v8_apply, val_main_v7_apply,
    val_main_call0_v0_apply, val_main_call0_cst_apply, e7]
  simp only [val_main_v5_apply, val_main_v2_apply, val_main_v1_apply, val_main_v0_apply, val_main_v4_apply,
    val_main_v3_apply, el, er, e0, e3]
  rfl

end Cert.ReferenceIdeal.RefValue

end
-- ==== Proof.lean ====
/-
  The tiled program and the whole-array reference compute one function of (x, W, b, α, β) over the extended reals:

      out[a, s, h] = max (∑ d, x[a, s, d] · (α[h] · W[h, d] + β[h]) + b[h]) 0.

  The tiled program rebuilds the weight α·W + β once, at its first grid point, into a scratch it keeps, and contracts each
  block of 1024 rows of x (its leading axes merged) with it; the reference rebuilds the weight as a whole array and
  contracts x's last axis with the weight's last axis. Narrowing a float is the identity on extended reals, the matrix
  unit's product into a zero accumulator and the host's contraction are the same sum over d, and both clip at the same
  zero. No law beyond re-indexing is needed, so the precondition is never opened.

  The frames of the two tiled programs are the generated ones; the reference's is its generated run with the result
  dropped; nothing was rewritten between the program and its idealization.
-/
import proofs.«145539_g82884278878587_cont_sun_c4_746_6_alg».proof.Defs
import proofs.«145539_g82884278878587_cont_sun_c4_746_6_alg».proof.Proof.Gen.Kernel
import proofs.«145539_g82884278878587_cont_sun_c4_746_6_alg».proof.Proof.Gen.Kernel.Frame
import proofs.«145539_g82884278878587_cont_sun_c4_746_6_alg».proof.Proof.Gen.KernelIdeal
import proofs.«145539_g82884278878587_cont_sun_c4_746_6_alg».proof.Proof.Gen.KernelIdeal.Frame
import proofs.«145539_g82884278878587_cont_sun_c4_746_6_alg».proof.Proof.Gen.ReferenceIdeal
import proofs.«145539_g82884278878587_cont_sun_c4_746_6_alg».proof.Proof.Gen.ReferenceIdeal.Run
import proofs.«145539_g82884278878587_cont_sun_c4_746_6_alg».proof.Proof.Gen.Pre_finite_inputs
import proofs.«145539_g82884278878587_cont_sun_c4_746_6_alg».proof.Proof.KernelValue
import proofs.«145539_g82884278878587_cont_sun_c4_746_6_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the whole computation of arguments that agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2.1,
    (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
